-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v58) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8388608x3 : Shape := ⟨2, ![8388608, 3]⟩
abbrev S_ : Shape := ⟨0, ![]⟩

class Facts : Prop where
  bcast_S_S8388608x3 : S_.BroadcastsInDim S8388608x3 (![] : Fin 0 → Fin S8388608x3.rank)
  reducesTo_S8388608x3_S_d0_1 : S8388608x3.ReducesTo [0, 1] S_
  h_S_ : 0 < S_.numel

variable [Facts]

def fn {F : FTy → Type} [FloatOps F] (main_arg0 : FVec F S8388608x3 .f32) : IVec S_ 1 :=
  let main_v0 : FVec F S8388608x3 .f32 := Host.absf main_arg0
  let main_cst : FVec F S_ .f32 := constant S_ .f32 0x7F800000#32
  let main_v1 : FVec F S8388608x3 .f32 := broadcastInDim S8388608x3 ![] bcast_S_S8388608x3 main_cst
  let main_v2 : IVec S8388608x3 1 := cmpf .olt main_v0 main_v1
  let main_c : IVec S_ 1 := constantI S_ 1 1#1
  let main_v3 : IVec S_ 1 := (fun x v => Host.reduce IntOp.andi x v reducesTo_S8388608x3_S_d0_1 h_S_) main_v2 main_c
  main_v3
-- ==== Kernel.lean ====
abbrev S8388608x3 : Shape := ⟨2, ![8388608, 3]⟩
abbrev S8388608x9 : Shape := ⟨2, ![8388608, 9]⟩
abbrev S8192x3 : Shape := ⟨2, ![8192, 3]⟩
abbrev S8192x9 : Shape := ⟨2, ![8192, 9]⟩
abbrev S8192x1 : Shape := ⟨2, ![8192, 1]⟩
abbrev S8192 : Shape := ⟨1, ![8192]⟩
abbrev S8388608x3x3 : Shape := ⟨3, ![8388608, 3, 3]⟩

abbrev nBuf : Space → Nat
  | .hbm => 3
  | .vmem => 4
  | .smem => 0
  | _ => 0

abbrev bufTy : (tb : Table) → Fin (tcTables nBuf tb) → BufTy
  | .hbm, ⟨0, _⟩ => ⟨S8388608x3, .f32⟩
  | .hbm, ⟨1, _⟩ => ⟨S8388608x9, .f32⟩
  | .hbm, ⟨2, _⟩ => ⟨S8388608x3x3, .f32⟩
  | .local _ .vmem, ⟨0, _⟩ => ⟨S8192x3, .f32⟩
  | .local _ .vmem, ⟨1, _⟩ => ⟨S8192x3, .f32⟩
  | .local _ .vmem, ⟨2, _⟩ => ⟨S8192x9, .f32⟩
  | .local _ .vmem, ⟨3, _⟩ => ⟨S8192x9, .f32⟩
  | _, _ => ⟨S8388608x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![1024], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S8192x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S8192x9 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

class Facts₀ : Prop where
  inb_S8192x3_S8192x3_0_0 : ∀ a, (![0, 0] : Fin 2 → Nat) a + S8192x3.size a ≤ S8192x3.size a
  h_S8192x3 : 0 < S8192x3.numel
  slices_S8192x3_o0_0_S8192x1 : S8192x3.Slices ![0, 0] S8192x1
  shapeCasts_S8192x1_S8192 : S8192x1.ShapeCasts S8192
  slices_S8192x3_o0_1_S8192x1 : S8192x3.Slices ![0, 1] S8192x1
  slices_S8192x3_o0_2_S8192x1 : S8192x3.Slices ![0, 2] S8192x1
  shapeCasts_S8192_S8192x1 : S8192.ShapeCasts S8192x1
  concatenates_S8192x1_S8192x1_S8192x1_S8192x1_S8192x1_S8192x1_S8192x1_S8192x1_S8192x1_S8192x9_d1 : Shape.Concatenates [S8192x1, S8192x1, S8192x1, S8192x1, S8192x1, S8192x1, S8192x1, S8192x1, S8192x1] S8192x9 1
  inb_S8192x9_S8192x9_0_0 : ∀ a, (![0, 0] : Fin 2 → Nat) a + S8192x9.size a ≤ S8192x9.size a
  h_S8192x9 : 0 < S8192x9.numel
  shapeCasts_S8388608x9_S8388608x3x3 : S8388608x9.ShapeCasts S8388608x3x3
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S8192x3.size a ≤ S8388608x3.size a
  hwx0_0 : ∀ i : grid0.Coords, EltTy.bits .f32 = 32 ∨ (Rect.block (s := S8388608x3) S8192x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S8192x9.size a ≤ S8388608x9.size a
  hwx0_1 : ∀ i : grid0.Coords, EltTy.bits .f32 = 32 ∨ (Rect.block (s := S8388608x9) S8192x9.size (cc0_transform_1 i) (hinb0_1 i)).WholeWords (EltTy.packing .f32)

variable [Facts₀]

abbrev win0_0 : Pipeline.Window sig grid0 :=
  Pipeline.Window.ofSpec (Memref.whole main_arg0) S8192x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S8192x9.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S8388608x3 : Shape := ⟨2, ![8388608, 3]⟩
abbrev S8388608x1 : Shape := ⟨2, ![8388608, 1]⟩
abbrev S8388608 : Shape := ⟨1, ![8388608]⟩
abbrev S_ : Shape := ⟨0, ![]⟩
abbrev S8388608x1x3 : Shape := ⟨3, ![8388608, 1, 3]⟩
abbrev S8388608x3x3 : Shape := ⟨3, ![8388608, 3, 3]⟩

abbrev nBuf : Space → Nat
  | .hbm => 69
  | .vmem => 0
  | .smem => 0
  | _ => 0

abbrev bufTy : (tb : Table) → Fin (tcTables nBuf tb) → BufTy
  | .hbm, ⟨0, _⟩ => ⟨S8388608x3, .f32⟩
  | .hbm, ⟨1, _⟩ => ⟨S8388608x1, .f32⟩
  | .hbm, ⟨2, _⟩ => ⟨S8388608, .f32⟩
  | .hbm, ⟨3, _⟩ => ⟨S8388608x1, .f32⟩
  | .hbm, ⟨4, _⟩ => ⟨S8388608, .f32⟩
  | .hbm, ⟨5, _⟩ => ⟨S8388608x1, .f32⟩
  | .hbm, ⟨6, _⟩ => ⟨S8388608, .f32⟩
  | .hbm, ⟨7, _⟩ => ⟨S8388608, .f32⟩
  | .hbm, ⟨8, _⟩ => ⟨S8388608, .f32⟩
  | .hbm, ⟨9, _⟩ => ⟨S8388608, .f32⟩
  | .hbm, ⟨10, _⟩ => ⟨S_, .f32⟩
  | .hbm, ⟨11, _⟩ => ⟨S8388608, .f32⟩
  | .hbm, ⟨12, _⟩ => ⟨S8388608, .f32⟩
  | .hbm, ⟨13, _⟩ => ⟨S8388608, .f32⟩
  | .hbm, ⟨14, _⟩ => ⟨S8388608, .f32⟩
  | .hbm, ⟨15, _⟩ => ⟨S_, .f32⟩
  | .hbm, ⟨16, _⟩ => ⟨S8388608, .f32⟩
  | .hbm, ⟨17, _⟩ => ⟨S8388608, .f32⟩
  | .hbm, ⟨18, _⟩ => ⟨S_, .f32⟩
  | .hbm, ⟨19, _⟩ => ⟨S8388608, .f32⟩
  | .hbm, ⟨20, _⟩ => ⟨S8388608, .f32⟩
  | .hbm, ⟨21, _⟩ => ⟨S8388608, .f32⟩
  | .hbm, ⟨22, _⟩ => ⟨S_, .f32⟩
  | .hbm, ⟨23, _⟩ => ⟨S8388608, .f32⟩
  | .hbm, ⟨24, _⟩ => ⟨S8388608, .f32⟩
  | .hbm, ⟨25, _⟩ => ⟨S_, .f32⟩
  | .hbm, ⟨26, _⟩ => ⟨S8388608, .f32⟩
  | .hbm, ⟨27, _⟩ => ⟨S8388608, .f32⟩
  | .hbm, ⟨28, _⟩ => ⟨S8388608, .f32⟩
  | .hbm, ⟨29, _⟩ => ⟨S8388608, .f32⟩
  | .hbm, ⟨30, _⟩ => ⟨S_, .f32⟩
  | .hbm, ⟨31, _⟩ => ⟨S8388608, .f32⟩
  | .hbm, ⟨32, _⟩ => ⟨S8388608, .f32⟩
  | .hbm, ⟨33, _⟩ => ⟨S8388608, .f32⟩
  | .hbm, ⟨34, _⟩ => ⟨S8388608, .f32⟩
  | .hbm, ⟨35, _⟩ => ⟨S8388608, .f32⟩
  | .hbm, ⟨36, _⟩ => ⟨S8388608, .f32⟩
  | .hbm, ⟨37, _⟩ => ⟨S_, .f32⟩
  | .hbm, ⟨38, _⟩ => ⟨S8388608, .f32⟩
  | .hbm, ⟨39, _⟩ => ⟨S8388608, .f32⟩
  | .hbm, ⟨40, _⟩ => ⟨S8388608, .f32⟩
  | .hbm, ⟨41, _⟩ => ⟨S8388608, .f32⟩
  | .hbm, ⟨42, _⟩ => ⟨S8388608, .f32⟩
  | .hbm, ⟨43, _⟩ => ⟨S8388608, .f32⟩
  | .hbm, ⟨44, _⟩ => ⟨S8388608, .f32⟩
  | .hbm, ⟨45, _⟩ => ⟨S8388608, .f32⟩
  | .hbm, ⟨46, _⟩ => ⟨S8388608, .f32⟩
  | .hbm, ⟨47, _⟩ => ⟨S8388608, .f32⟩
  | .hbm, ⟨48, _⟩ => ⟨S8388608, .f32⟩
  | .hbm, ⟨49, _⟩ => ⟨S_, .f32⟩
  | .hbm, ⟨50, _⟩ => ⟨S8388608, .f32⟩
  | .hbm, ⟨51, _⟩ => ⟨S_, .f32⟩
  | .hbm, ⟨52, _⟩ => ⟨S8388608, .f32⟩
  | .hbm, ⟨53, _⟩ => ⟨S8388608x1, .f32⟩
  | .hbm, ⟨54, _⟩ => ⟨S8388608x1, .f32⟩
  | .hbm, ⟨55, _⟩ => ⟨S8388608x1, .f32⟩
  | .hbm, ⟨56, _⟩ => ⟨S8388608x3, .f32⟩
  | .hbm, ⟨57, _⟩ => ⟨S8388608x1, .f32⟩
  | .hbm, ⟨58, _⟩ => ⟨S8388608x1, .f32⟩
  | .hbm, ⟨59, _⟩ => ⟨S8388608x1, .f32⟩
  | .hbm, ⟨60, _⟩ => ⟨S8388608x3, .f32⟩
  | .hbm, ⟨61, _⟩ => ⟨S8388608x1, .f32⟩
  | .hbm, ⟨62, _⟩ => ⟨S8388608x1, .f32⟩
  | .hbm, ⟨63, _⟩ => ⟨S8388608x1, .f32⟩
  | .hbm, ⟨64, _⟩ => ⟨S8388608x3, .f32⟩
  | .hbm, ⟨65, _⟩ => ⟨S8388608x1x3, .f32⟩
  | .hbm, ⟨66, _⟩ => ⟨S8388608x1x3, .f32⟩
  | .hbm, ⟨67, _⟩ => ⟨S8388608x1x3, .f32⟩
  | .hbm, ⟨68, _⟩ => ⟨S8388608x3x3, .f32⟩
  | _, _ => ⟨S8388608x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_v8 : Ref sig .tc := ⟨.hbm, 9, rfl⟩
abbrev main_cst : Ref sig .tc := ⟨.hbm, 10, rfl⟩
abbrev main_v9 : Ref sig .tc := ⟨.hbm, 11, rfl⟩
abbrev main_v10 : Ref sig .tc := ⟨.hbm, 12, rfl⟩
abbrev main_v11 : Ref sig .tc := ⟨.hbm, 13, rfl⟩
abbrev main_v12 : Ref sig .tc := ⟨.hbm, 14, rfl⟩
abbrev main_cst_0 : Ref sig .tc := ⟨.hbm, 15, rfl⟩
abbrev main_v13 : Ref sig .tc := ⟨.hbm, 16, rfl⟩
abbrev main_v14 : Ref sig .tc := ⟨.hbm, 17, rfl⟩
abbrev main_cst_1 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst_2 : Ref sig .tc := ⟨.hbm, 22, rfl⟩
abbrev main_v18 : Ref sig .tc := ⟨.hbm, 23, rfl⟩
abbrev main_v19 : Ref sig .tc := ⟨.hbm, 24, rfl⟩
abbrev main_cst_3 : Ref sig .tc := ⟨.hbm, 25, rfl⟩
abbrev main_v20 : Ref sig .tc := ⟨.hbm, 26, rfl⟩
abbrev main_v21 : Ref sig .tc := ⟨.hbm, 27, rfl⟩
abbrev main_v22 : Ref sig .tc := ⟨.hbm, 28, rfl⟩
abbrev main_v23 : Ref sig .tc := ⟨.hbm, 29, rfl⟩
abbrev main_cst_4 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩
abbrev main_cst_5 : Ref sig .tc := ⟨.hbm, 37, rfl⟩
abbrev main_v30 : Ref sig .tc := ⟨.hbm, 38, rfl⟩
abbrev main_v31 : Ref sig .tc := ⟨.hbm, 39, rfl⟩
abbrev main_v32 : Ref sig .tc := ⟨.hbm, 40, rfl⟩
abbrev main_v33 : Ref sig .tc := ⟨.hbm, 41, rfl⟩
abbrev main_v34 : Ref sig .tc := ⟨.hbm, 42, rfl⟩
abbrev main_v35 : Ref sig .tc := ⟨.hbm, 43, rfl⟩
abbrev main_v36 : Ref sig .tc := ⟨.hbm, 44, rfl⟩
abbrev main_v37 : Ref sig .tc := ⟨.hbm, 45, rfl⟩
abbrev main_v38 : Ref sig .tc := ⟨.hbm, 46, rfl⟩
abbrev main_v39 : Ref sig .tc := ⟨.hbm, 47, rfl⟩
abbrev main_v40 : Ref sig .tc := ⟨.hbm, 48, rfl⟩
abbrev main_cst_6 : Ref sig .tc := ⟨.hbm, 49, rfl⟩
abbrev main_v41 : Ref sig .tc := ⟨.hbm, 50, rfl⟩
abbrev main_cst_7 : Ref sig .tc := ⟨.hbm, 51, rfl⟩
abbrev main_v42 : Ref sig .tc := ⟨.hbm, 52, rfl⟩
abbrev main_v43 : Ref sig .tc := ⟨.hbm, 53, rfl⟩
abbrev main_v44 : Ref sig .tc := ⟨.hbm, 54, rfl⟩
abbrev main_v45 : Ref sig .tc := ⟨.hbm, 55, rfl⟩
abbrev main_v46 : Ref sig .tc := ⟨.hbm, 56, rfl⟩
abbrev main_v47 : Ref sig .tc := ⟨.hbm, 57, rfl⟩
abbrev main_v48 : Ref sig .tc := ⟨.hbm, 58, rfl⟩
abbrev main_v49 : Ref sig .tc := ⟨.hbm, 59, rfl⟩
abbrev main_v50 : Ref sig .tc := ⟨.hbm, 60, rfl⟩
abbrev main_v51 : Ref sig .tc := ⟨.hbm, 61, rfl⟩
abbrev main_v52 : Ref sig .tc := ⟨.hbm, 62, rfl⟩
abbrev main_v53 : Ref sig .tc := ⟨.hbm, 63, rfl⟩
abbrev main_v54 : Ref sig .tc := ⟨.hbm, 64, rfl⟩
abbrev main_v55 : Ref sig .tc := ⟨.hbm, 65, rfl⟩
abbrev main_v56 : Ref sig .tc := ⟨.hbm, 66, rfl⟩
abbrev main_v57 : Ref sig .tc := ⟨.hbm, 67, rfl⟩
abbrev main_v58 : Ref sig .tc := ⟨.hbm, 68, rfl⟩

abbrev nD : Nat := 1
abbrev τ : Topo := Topo.v7x

variable {F : FTy → Type} [FloatOps F]

class Facts₀ : Prop where
  slices_S8388608x3_S8388608x1_0_0 : S8388608x3.Slices ![0, 0] S8388608x1
  shapeCasts_S8388608x1_S8388608 : S8388608x1.ShapeCasts S8388608
  slices_S8388608x3_S8388608x1_0_1 : S8388608x3.Slices ![0, 1] S8388608x1
  slices_S8388608x3_S8388608x1_0_2 : S8388608x3.Slices ![0, 2] S8388608x1
  bcast_S_S8388608 : S_.BroadcastsInDim S8388608 (![] : Fin 0 → Fin S8388608.rank)
  bcast_S8388608_S8388608x1_0 : S8388608.BroadcastsInDim S8388608x1 (![0] : Fin 1 → Fin S8388608x1.rank)
  concatenates_S8388608x1_S8388608x1_S8388608x1_S8388608x3_d1 : Shape.Concatenates [S8388608x1, S8388608x1, S8388608x1] S8388608x3 1
  bcast_S8388608x3_S8388608x1x3_0_2 : S8388608x3.BroadcastsInDim S8388608x1x3 (![0, 2] : Fin 2 → Fin S8388608x1x3.rank)
  concatenates_S8388608x1x3_S8388608x1x3_S8388608x1x3_S8388608x3x3_d1 : Shape.Concatenates [S8388608x1x3, S8388608x1x3, S8388608x1x3] S8388608x3x3 1

variable [Facts₀]

class Facts : Prop extends Facts₀ where

variable [Facts]
-- ==== Proof.Spec.lean ====
/-
  The planar rigid-motion exponential, row by row.

  A row of the input holds a translation part `(x, y)` and an angle `w`.  Both programs compute from it, with
  `s = w·w`, `θ = √s` and the regulariser `ε` (the float nearest 1e-5, the same word on both sides),

      a = sin θ / (θ + ε)          b = (1 − cos θ) / (s + ε)          c = (1 − a) / (s + ε)

  and from these the nine entries of the 3×3 matrix, row-major:

      1 − b·s      (−a)·w      (1 − c·s)·x + ((−b)·w)·y
      a·w          1 − b·s     (b·w)·x + (1 − c·s)·y
      0            0           1

  Every operation is read on the extended reals exactly as the ideal instance reads it (`Ideal.sqrt`, `Ideal.sin`,
  `Ideal.cos`, `Ideal.div`, EReal's `+ − ·`), so nothing below depends on the input being finite: the two programs
  apply the same operations in the same order, and differ only in how they spell the negation (`0 − a` against `−a`)
  and in how the nine columns are laid into the result.
-/
import Idealize.ShloMosaic.PureOps.Ideal
import Idealize.ShloMosaic.PureOps.Ideal.Laws
import Idealize.ShloMosaic.Lib.ValueIdx

noncomputable section

namespace Cert.PlanarExp

open Idealize.ShloMosaic Idealize.ShloMosaic.ValueIdx

/-- The literal `1`. -/
abbrev one : EReal := Ideal.ofBits .f32 0x3F800000#32
/-- The regulariser added to a denominator: the float nearest `1e-5`. -/
abbrev eps : EReal := Ideal.ofBits .f32 0x3727C5AC#32
/-- The literal `0`. -/
abbrev zer : EReal := Ideal.ofBits .f32 0x00000000#32

/-- The squared angle. -/
def angSq (w : EReal) : EReal := w * w
/-- The angle's magnitude, `√(w·w)`. -/
def ang (w : EReal) : EReal := Ideal.sqrt (angSq w)
/-- `sin θ / (θ + ε)`. -/
def coefA (w : EReal) : EReal := Ideal.div (Ideal.sin (ang w)) (ang w + eps)
/-- `(1 − cos θ) / (θ² + ε)`. -/
def coefB (w : EReal) : EReal := Ideal.div (one - Ideal.cos (ang w)) (angSq w + eps)
/-- `(1 − a) / (θ² + ε)`. -/
def coefC (w : EReal) : EReal := Ideal.div (one - coefA w) (angSq w + eps)
/-- The rotation block's diagonal entry, `1 − b·θ²`. -/
def rotDiag (w : EReal) : EReal := one - coefB w * angSq w
/-- The rotation block's upper off-diagonal entry, `(−a)·w`. -/
def rotUp (w : EReal) : EReal := -(coefA w) * w
/-- The rotation block's lower off-diagonal entry, `a·w`. -/
def rotLow (w : EReal) : EReal := coefA w * w
/-- The diagonal entry of the matrix applied to the translation part, `1 − c·θ²`. -/
def linDiag (w : EReal) : EReal := one - coefC w * angSq w
/-- The first translation entry, `(1 − c·θ²)·x + ((−b)·w)·y`. -/
def transX (x y w : EReal) : EReal := linDiag w * x + (-(coefB w) * w) * y
/-- The second translation entry, `(b·w)·x + (1 − c·θ²)·y`. -/
def transY (x y w : EReal) : EReal := (coefB w * w) * x + linDiag w * y

/-- The nine entries of one row's matrix, row-major. -/
def entries (x y w : EReal) : Fin 9 → EReal :=
  ![rotDiag w, rotUp w, transX x y w, rotLow w, rotDiag w, transY x y w, zer, zer, one]

/-- A kernel's negation `0 − a` is `−a` on every extended real, the infinities included. -/
theorem zer_sub (a : EReal) : zer - a = -a := by
  show Ideal.ofBits .f32 0x00000000#32 - a = -a
  rw [Ideal.ofBits_zero_f32, zero_sub]

/-- The input array's three columns at row `b`. -/
abbrev colX (uv : (⟨2, ![8388608, 3]⟩ : Shape).Idx → EReal) (b : Fin 8388608) : EReal := uv (ix2 b (0 : Fin 3))
abbrev colY (uv : (⟨2, ![8388608, 3]⟩ : Shape).Idx → EReal) (b : Fin 8388608) : EReal := uv (ix2 b (1 : Fin 3))
abbrev colW (uv : (⟨2, ![8388608, 3]⟩ : Shape).Idx → EReal) (b : Fin 8388608) : EReal := uv (ix2 b (2 : Fin 3))

/-- The flat result, one row of nine entries per input row: entry `(b, q)` is entry `q` of row `b`'s matrix. -/
def flat (uv : (⟨2, ![8388608, 3]⟩ : Shape).Idx → EReal) : (⟨2, ![8388608, 9]⟩ : Shape).Idx → EReal :=
  fun j => entries (colX uv (j 0)) (colY uv (j 0)) (colW uv (j 0)) (j 1)

/-- The result as a stack of 3×3 matrices: entry `(b, r, s)` is entry `3·r + s` of row `b`'s matrix. -/
def stacked (uv : (⟨2, ![8388608, 3]⟩ : Shape).Idx → EReal) : (⟨3, ![8388608, 3, 3]⟩ : Shape).Idx → EReal :=
  fun i => entries (colX uv (i 0)) (colY uv (i 0)) (colW uv (i 0))
    ⟨3 * (i 1).val + (i 2).val, by have h1 : (i 1).val < 3 := (i 1).isLt; have h2 : (i 2).val < 3 := (i 2).isLt; omega⟩

end Cert.PlanarExp

end
-- ==== Proof.BlockEntries.lean ====
/-
  One block of the kernel: what the body stores, entry by entry.

  The body loads a block of 8192 rows by 3 columns, takes its three columns as vectors over the rows (a unit-width
  slice, then the cast that drops the unit axis), computes the seven distinct columns of the result with pointwise
  operations, and joins nine unit-width columns side by side into the 8192-by-9 block it stores.  Read at row `p` and
  column `q`, the stored block is entry `q` of the matrix of the block's row `p` (`Cert.PlanarExp.entries`).
-/
import proofs.«126168_j66649302499847_1_alg».proof.Proof.Gen.KernelIdeal.Frame
import proofs.«126168_j66649302499847_1_alg».proof.Proof.Spec
import Idealize.ShloMosaic.Lib.Pipeline.Value
import Idealize.ShloMosaic.Lib.ValueIdx

set_option maxRecDepth 16384

noncomputable section

namespace Cert.KernelIdeal.BlockEntries

open Cert.KernelIdeal Cert.KernelIdeal.Gen Idealize.ShloMosaic Idealize.ShloMosaic.TcCoe Idealize.ShloMosaic.ValueIdx
open Idealize.SL.Sem Cert.PlanarExp

/-! ## The three columns of a loaded block -/

/-- Column `k` of the block, as the body takes it: the unit-width slice at offset `k`, its unit axis dropped. Read at
    row `p` it is the block's entry `(p, k)`: the cast keeps the row-major position, and the slice adds its offset. -/
theorem column_apply (v : Vec Ideal S8192x3 .f32) (k : Fin 3) (h : S8192x3.Slices ![0, k.val] S8192x1) (p : Fin 8192) :
    shapeCast S8192 (extractStridedSlice S8192x1 ![0, k.val] v h) shapeCasts_S8192x1_S8192 (ix1 p) = v (ix2 p k) := by
  refine (shapeCast_apply _ shapeCasts_S8192x1_S8192 (ix1 p) (ix2 p (0 : Fin 1)) ?_).trans ?_
  · rewrite [Shape.rowMajor_val_two, Shape.rowMajor_val_one]
    show p.val * 1 + 0 = p.val
    omega
  · exact extractStridedSlice_apply ![0, k.val] v h (ix2 p (0 : Fin 1)) (ix2 p k) (fun a => match a with
      | ⟨0, _⟩ => by show p.val = 0 + p.val; omega
      | ⟨1, _⟩ => by show k.val = k.val + 0; omega)

theorem colX_eq (v : Vec Ideal S8192x3 .f32) : k0_pay2 v = fun i => v (ix2 (i 0) (0 : Fin 3)) := by
  funext i
  obtain ⟨p, rfl⟩ : ∃ p : Fin 8192, i = ix1 p := ⟨i 0, eq_ix1 i⟩
  exact column_apply v 0 _ p

theorem colY_eq (v : Vec Ideal S8192x3 .f32) : k0_pay3 v = fun i => v (ix2 (i 0) (1 : Fin 3)) := by
  funext i
  obtain ⟨p, rfl⟩ : ∃ p : Fin 8192, i = ix1 p := ⟨i 0, eq_ix1 i⟩
  exact column_apply v 1 _ p

theorem colW_eq (v : Vec Ideal S8192x3 .f32) : k0_pay4 v = fun i => v (ix2 (i 0) (2 : Fin 3)) := by
  funext i
  obtain ⟨p, rfl⟩ : ∃ p : Fin 8192, i = ix1 p := ⟨i 0, eq_ix1 i⟩
  exact column_apply v 2 _ p

/-! ## The seven computed columns, row by row

Every operation between the columns and the stored block is pointwise, and at the ideal instance a pointwise operation
read at a row is the operation on the extended reals; so each column at row `p` is the matching entry's formula of the
row's angle (and, for the two translation entries, of its `x` and `y`). -/

theorem rotDiag_col (v : Vec Ideal S8192x3 .f32) : k0_pay9 v = fun i => rotDiag (v (ix2 (i 0) (2 : Fin 3))) := by
  unfold k0_pay9 k0_pay8 k0_pay6 k0_pay5
  rw [colW_eq]
  rfl

/-- The kernel negates by subtracting from zero: `0 − a = −a` on the extended reals. -/
theorem rotUp_col (v : Vec Ideal S8192x3 .f32) : k0_pay10 v = fun i => rotUp (v (ix2 (i 0) (2 : Fin 3))) := by
  unfold k0_pay10 k0_pay7 k0_pay6 k0_pay5
  rw [colW_eq]
  funext i
  show (zer - coefA (v (ix2 (i 0) (2 : Fin 3)))) * v (ix2 (i 0) (2 : Fin 3)) = _
  rw [zer_sub]
  rfl

theorem rotLow_col (v : Vec Ideal S8192x3 .f32) : k0_pay11 v = fun i => rotLow (v (ix2 (i 0) (2 : Fin 3))) := by
  unfold k0_pay11 k0_pay7 k0_pay6 k0_pay5
  rw [colW_eq]
  rfl

theorem linDiag_col (v : Vec Ideal S8192x3 .f32) : k0_pay12 v = fun i => linDiag (v (ix2 (i 0) (2 : Fin 3))) := by
  unfold k0_pay12 k0_pay7 k0_pay6 k0_pay5
  rw [colW_eq]
  rfl

theorem coefB_col (v : Vec Ideal S8192x3 .f32) : k0_pay8 v = fun i => coefB (v (ix2 (i 0) (2 : Fin 3))) := by
  unfold k0_pay8 k0_pay6 k0_pay5
  rw [colW_eq]
  rfl

theorem transX_col (v : Vec Ideal S8192x3 .f32) :
    k0_pay13 v = fun i => transX (v (ix2 (i 0) (0 : Fin 3))) (v (ix2 (i 0) (1 : Fin 3))) (v (ix2 (i 0) (2 : Fin 3))) := by
  unfold k0_pay13
  rw [linDiag_col, coefB_col, colX_eq, colY_eq, colW_eq]
  funext i
  show linDiag (v (ix2 (i 0) (2 : Fin 3))) * v (ix2 (i 0) (0 : Fin 3))
      + ((zer - coefB (v (ix2 (i 0) (2 : Fin 3)))) * v (ix2 (i 0) (2 : Fin 3))) * v (ix2 (i 0) (1 : Fin 3)) = _
  rw [zer_sub]
  rfl

theorem transY_col (v : Vec Ideal S8192x3 .f32) :
    k0_pay14 v = fun i => transY (v (ix2 (i 0) (0 : Fin 3))) (v (ix2 (i 0) (1 : Fin 3))) (v (ix2 (i 0) (2 : Fin 3))) := by
  unfold k0_pay14
  rw [linDiag_col, coefB_col, colX_eq, colY_eq, colW_eq]
  rfl

theorem zero_col : (k0_pay15 (F := Ideal)) = fun _ => zer := rfl
theorem one_col : (k0_pay16 (F := Ideal)) = fun _ => one := rfl

/-! ## Nine unit-width columns side by side -/

/-- The join of nine columns, each given over the rows and widened to unit width, read at row `p` and column `q`: column
    `q` at row `p`.  The pieces all have extent one along the joined axis, so the coordinate on that axis names the piece;
    the widening cast keeps the row-major position. -/
theorem joined_apply (a0 a1 a2 a3 a4 a5 a6 : FVec Ideal S8192 .f32) (p : Fin 8192) (q : Fin 9) :
    k0_pay1 a0 a1 a2 a3 a4 a5 a6 (ix2 p q)
      = (![a0, a1, a3, a2, a0, a4, a5, a5, a6] : Fin 9 → FVec Ideal S8192 .f32) q (ix1 p) := by
  unfold k0_pay1
  let f : Fin 9 → (S8192x1.Idx → Ideal .f32) := fun n =>
    shapeCast S8192x1 ((![a0, a1, a3, a2, a0, a4, a5, a5, a6] : Fin 9 → FVec Ideal S8192 .f32) n) shapeCasts_S8192_S8192x1
  refine (concatenate_ofFn_unit_apply (t := S8192x9) (s₁ := S8192x1) (1 : Fin 2) f
    concatenates_S8192x1_S8192x1_S8192x1_S8192x1_S8192x1_S8192x1_S8192x1_S8192x1_S8192x1_S8192x9_d1 rfl rfl (ix2 p q) q rfl
    (ix2 p (0 : Fin 1)) ?_).trans ?_
  · intro b hb
    match b with
    | ⟨0, _⟩ => rfl
    | ⟨1, _⟩ => exact absurd rfl hb
  · refine shapeCast_apply _ shapeCasts_S8192_S8192x1 (ix2 p (0 : Fin 1)) (ix1 p) ?_
    rewrite [Shape.rowMajor_val_two, Shape.rowMajor_val_one]
    show p.val = p.val * 1 + 0
    omega

/-! ## The stored block -/

theorem zeroOffsets : (![0, 0] : Fin 2 → Nat) = fun _ => 0 := funext fun a => by fin_cases a <;> rfl

/-- What the body leaves in the output buffer, from the block `v` it loaded: at row `p`, column `q`, entry `q` of the
    matrix of the block's row `p`. -/
theorem stored_apply (v : Vec Ideal S8192x3 .f32) (p : Fin 8192) (q : Fin 9) :
    out0_1 v (ix2 p q) = entries (v (ix2 p (0 : Fin 3))) (v (ix2 p (1 : Fin 3))) (v (ix2 p (2 : Fin 3))) q := by
  unfold out0_1
  rw [View.canon_unit_zero zeroOffsets]
  simp only [View.ld_unit_zero (S := S8192x3) zeroOffsets]
  rw [joined_apply, rotDiag_col, rotUp_col, rotLow_col, transX_col, transY_col, zero_col, one_col]
  fin_cases q <;> rfl

end Cert.KernelIdeal.BlockEntries

end
-- ==== Proof.WholeArray.lean ====
/-
  From the blocks to the result.

  Grid point `t` of 1024 reads rows `8192·t … 8192·t + 8191` of the input and writes the same rows of the flat
  8388608-by-9 array; the blocks tile that array, so after the run it holds, at `(b, q)`, entry `q` of the matrix of
  input row `b` (`Cert.PlanarExp.flat`).  The one host operation after the kernel reshapes the flat array to
  8388608-by-3-by-3; a reshape keeps the row-major position, and `(b, r, s)` and `(b, 3·r + s)` have the same one, so the
  result is the stack of matrices (`Cert.PlanarExp.stacked`).
-/
import proofs.«126168_j66649302499847_1_alg».proof.Proof.BlockEntries
import Idealize.ShloMosaic.Lib.StableHlo.Run

set_option maxRecDepth 16384

noncomputable section

namespace Cert.KernelIdeal.WholeArray

open Cert.KernelIdeal Cert.KernelIdeal.Gen Cert.KernelIdeal.BlockEntries
open Idealize.ShloMosaic Idealize.ShloMosaic.TcCoe Idealize.ShloMosaic.ValueIdx Idealize.SL.Sem Cert.PlanarExp

variable (m : (ℓ : Loc nD τ sig) → Buf (Elt Ideal) ℓ) (ρ : Dev nD → PrngReg)

/-! ## Which rows a grid point touches -/

/-- Both windows' block index at point `t` is `(t, 0)`: decided over the 1024 points. -/
theorem block_index : ∀ t : Fin cfg0.N, win0_0.index t (0 : Fin 2) = t.val ∧ win0_0.index t (1 : Fin 2) = 0
    ∧ win0_1.index t (0 : Fin 2) = t.val ∧ win0_1.index t (1 : Fin 2) = 0 :=
  (by decide +kernel : ∀ t : Fin grid0.N, _)

theorem point_lt (t : Fin cfg0.N) : t.val < 1024 := lt_of_lt_of_eq t.isLt N_0

/-- The input block at point `t`, read at row `p` and column `k`, is the input array at row `8192·t + p`, column `k`. -/
theorem input_block_apply (c : Dev nD) (t : Fin cfg0.N) (p : Fin 8192) (k : Fin 3) :
    iblk m c 0 t (ix2 p k)
      = V m c main_arg0 (ix2 (⟨t.val * 8192 + p.val, by have := point_lt t; have := p.isLt; omega⟩ : Fin 8388608) k) := by
  obtain ⟨e0, e1, -, -⟩ := block_index t
  show V m c main_arg0 (((cfg0.win 0).blk t).view.emb (ix2 p k)) = V m c main_arg0 _
  refine congrArg (V m c main_arg0) (funext fun a => Fin.ext ?_)
  match a with
  | ⟨0, _⟩ => show win0_0.index t (0 : Fin 2) * 8192 + 1 * p.val = t.val * 8192 + p.val; omega
  | ⟨1, _⟩ => show win0_0.index t (1 : Fin 2) * 3 + 1 * k.val = k.val; omega

/-! ## What a grid point writes back -/

/-- What point `t` writes back is block `t` of the flat array of matrix entries. -/
theorem flushed_eq (c : Dev nD) (t : Fin cfg0.N) :
    (dats m 0 c).flushed 1 t = ((cfg0.win 1).blk t).view.read (Elt Ideal) (flat (V m c main_arg0)) := by
  show (cfg0.win 1).cut (grid0.coords t) ((dats m 0 c).after 1 t) = _
  rw [after0_1]
  obtain ⟨-, -, e2, e3⟩ := block_index t
  funext j
  show out0_1 (iblk m c 0 t) j = flat (V m c main_arg0) (((cfg0.win 1).blk t).view.emb j)
  have hj0 : (j 0).val < 8192 := (j 0).isLt
  have hj1 : (j 1).val < 9 := (j 1).isLt
  have hemb : ((cfg0.win 1).blk t).view.emb j
      = ix2 (⟨t.val * 8192 + (j 0).val, by have := point_lt t; omega⟩ : Fin 8388608) (⟨(j 1).val, hj1⟩ : Fin 9) := by
    funext a; apply Fin.ext
    match a with
    | ⟨0, _⟩ => show win0_1.index t (0 : Fin 2) * 8192 + 1 * (j 0).val = t.val * 8192 + (j 0).val; omega
    | ⟨1, _⟩ => show win0_1.index t (1 : Fin 2) * 9 + 1 * (j 1).val = (j 1).val; omega
  rw [hemb]
  refine (congrArg (out0_1 (iblk m c 0 t)) (eq_ix2 (n0 := 8192) (n1 := 9) j)).trans ?_
  refine (stored_apply (iblk m c 0 t) (j 0) (j 1)).trans ?_
  rw [input_block_apply m c t (j 0) 0, input_block_apply m c t (j 0) 1, input_block_apply m c t (j 0) 2]
  rfl

/-! ## The blocks tile the flat array -/

theorem mem_block (t : Fin cfg0.N) (i : S8388608x9.Idx) :
    i ∈ ((cfg0.win 1).blk t).view.set ↔ ∀ a : Fin 2, win0_1.index t a * S8192x9.size a ≤ (i a).val
      ∧ (i a).val < win0_1.index t a * S8192x9.size a + S8192x9.size a := by
  show i ∈ ((View.whole main_v0).slice (win0_1.rect t)).set ↔ _
  rw [View.set_slice_whole, Rect.mem_set_unit]
  exact Iff.rfl

/-- Row `b` of the flat array lies in the block of point `b / 8192`. -/
theorem covered (i : S8388608x9.Idx) :
    ∃ t : Fin cfg0.N, (cfg0.win 1).flush t = true ∧ i ∈ ((cfg0.win 1).blk t).view.set := by
  have hi0 : (i 0).val < 8388608 := (i 0).isLt
  have hi1 : (i 1).val < 9 := (i 1).isLt
  have hq : (i 0).val / 8192 < cfg0.N := lt_of_lt_of_eq (by omega : (i 0).val / 8192 < 1024) N_0.symm
  obtain ⟨-, -, e2, e3⟩ := block_index ⟨(i 0).val / 8192, hq⟩
  refine ⟨⟨(i 0).val / 8192, hq⟩, flush0_1 _, ?_⟩
  rw [mem_block]
  intro a
  match a with
  | ⟨0, _⟩ =>
    show win0_1.index ⟨(i 0).val / 8192, hq⟩ (0 : Fin 2) * 8192 ≤ (i 0).val
      ∧ (i 0).val < win0_1.index ⟨(i 0).val / 8192, hq⟩ (0 : Fin 2) * 8192 + 8192
    have e2' : win0_1.index ⟨(i 0).val / 8192, hq⟩ (0 : Fin 2) = (i 0).val / 8192 := e2
    omega
  | ⟨1, _⟩ =>
    show win0_1.index ⟨(i 0).val / 8192, hq⟩ (1 : Fin 2) * 9 ≤ (i 1).val
      ∧ (i 1).val < win0_1.index ⟨(i 0).val / 8192, hq⟩ (1 : Fin 2) * 9 + 9
    omega

/-- After the kernel the flat array holds every row's nine matrix entries. -/
theorem flat_final (c : Dev nD) : (dats m 0 c).arrAt 1 cfg0.N = flat (m ((c : Thread nD τ).loc main_arg0)) :=
  ((dats m 0 c).arrAt_eq_of_cover 1 (flat (V m c main_arg0)) (fun t _ => flushed_eq m c t) covered).trans
    (by rw [V_main_arg0])

/-! ## The reshape after the kernel -/

/-- The flat array of entries, reshaped to matrices, is the stack of matrices: `(b, r, s)` and `(b, 3·r + s)` share a
    row-major position. -/
theorem reshape_flat (u : FVec Ideal S8388608x3 .f32) :
    shapeCast S8388608x3x3 (flat u) shapeCasts_S8388608x9_S8388608x3x3 = stacked u := by
  funext i
  obtain ⟨b, r, s, rfl⟩ : ∃ (b : Fin 8388608) (r s : Fin 3), i = ix3 b r s := ⟨i 0, i 1, i 2, eq_ix3 i⟩
  refine (shapeCast_apply (flat u) shapeCasts_S8388608x9_S8388608x3x3 (ix3 b r s)
    (ix2 b (⟨3 * r.val + s.val, by have := r.isLt; have := s.isLt; omega⟩ : Fin 9)) ?_).trans rfl
  rewrite [Shape.rowMajor_val_two, Shape.rowMajor_val_three]
  show b.val * 9 + (3 * r.val + s.val) = (b.val * 3 + r.val) * 3 + s.val
  omega

/-- The result buffer after the lines that follow the kernel: the stack of the rows' matrices. -/
theorem result_final (c : Dev nD) :
    Pipeline.afterTail₀ cfgs (dats m) 0 (V0 m) [hostOps1] c main_v1 = stacked (m ((c : Thread nD τ).loc main_arg0)) := by
  unfold Pipeline.afterTail₀
  show StableHlo.after hostOps1 _ (Proc.devRef .tc main_v1) = _
  after_results
  show shapeCast S8388608x3x3 (Pipeline.withArrays (cfgs 0).spec c (V0 m c) (fun w => (dats m 0 c).arrAt w (cfgs 0).N)
      (Proc.devRef .tc main_v0)) shapeCasts_S8388608x9_S8388608x3x3 = _
  rw [show Pipeline.withArrays (cfgs 0).spec c (V0 m c) (fun w => (dats m 0 c).arrAt w (cfgs 0).N) (Proc.devRef .tc main_v0)
      = flat (m ((c : Thread nD τ).loc main_arg0)) from
    (Pipeline.withArrays_arr spec0 launch0.win.arr_inj c _ _ 1).trans (flat_final m c)]
  exact reshape_flat _

/-! ## The run, with its result named -/

/-- The result buffer is unscoped and is no window's array, so the region passes it by and the tail's value is its
    final contents. -/
theorem result_bypasses : main_v1 ∈ Pipeline.restRefs sig (cfgs 0).spec :=
  Pipeline.mem_restRefs_of main_v1 rfl (by decide)

/-- Every weakly fair execution of the idealized kernel program ends with the result at the stack of the rows' matrices
    and the input unchanged. -/
theorem run : θ_run defs (onTc (τ := τ) (main (F := Ideal))) ⟨m, fun _ => 0, ρ⟩ (fun r => ∀ c : Dev nD,
      r.2.mem ((c.tc : Thread nD τ).loc main_v1) = stacked (m ((c.tc : Thread nD τ).loc main_arg0))
      ∧ r.2.mem ((c.tc : Thread nD τ).loc main_arg0) = m ((c.tc : Thread nD τ).loc main_arg0)) :=
  (θ_run defs _ _).mono (fun r h c => ⟨((h c).2 main_v1 result_bypasses).trans (result_final m c),
      ((h c).1 0).trans (((dats m 0 c).arrAt_in 0 rfl _).trans ((A_eq m c 0).trans (V_main_arg0 m c)))⟩)
    (run_main m ρ)

end Cert.KernelIdeal.WholeArray

end
-- ==== Proof.RefEntries.lean ====
/-
  The reference, entry by entry.

  The reference slices the three columns out of the whole input (a unit-width slice, then the reshape that drops the unit
  axis), computes the same seven columns with the host's pointwise operations, widens each to unit width, joins three at a
  time into the three rows of the matrix, gives each row a unit middle axis, and joins the rows along it.  Read at
  `(b, r, s)` the result is therefore column `3·r + s` of the nine at input row `b`: entry `3·r + s` of that row's matrix
  (`Cert.PlanarExp.stacked`).  The host's negation is `−a` itself; its square root, sine, cosine and quotient are, on the
  extended reals, the functions the kernel's operations are.
-/
import proofs.«126168_j66649302499847_1_alg».proof.Proof.Gen.ReferenceIdeal.Read
import proofs.«126168_j66649302499847_1_alg».proof.Proof.Spec
import Idealize.ShloMosaic.Lib.Pipeline.Value
import Idealize.ShloMosaic.Lib.ValueIdx

set_option maxRecDepth 16384

noncomputable section

namespace Cert.ReferenceIdeal.Stacked

open Cert.ReferenceIdeal Cert.ReferenceIdeal.Gen Cert.ReferenceIdeal.Read Idealize.ShloMosaic Idealize.ShloMosaic.TcCoe
open Idealize.ShloMosaic.ValueIdx Idealize.SL.Sem Cert.PlanarExp

/-! ## The three columns of the input -/

theorem colX_ref (u : FVec Ideal S8388608x3 .f32) : val_main_v1 (F := Ideal) u = fun i => u (ix2 (i 0) (0 : Fin 3)) := by
  funext i
  rw [val_main_v1_apply, val_main_v0_apply]
  refine congrArg u (funext fun a => Fin.ext ?_)
  match a with
  | ⟨0, _⟩ => show (i 0).val / 1 = (i 0).val; omega
  | ⟨1, _⟩ => rfl

theorem colY_ref (u : FVec Ideal S8388608x3 .f32) : val_main_v3 (F := Ideal) u = fun i => u (ix2 (i 0) (1 : Fin 3)) := by
  funext i
  rw [val_main_v3_apply, val_main_v2_apply]
  refine congrArg u (funext fun a => Fin.ext ?_)
  match a with
  | ⟨0, _⟩ => show (i 0).val / 1 = (i 0).val; omega
  | ⟨1, _⟩ => rfl

theorem colW_ref (u : FVec Ideal S8388608x3 .f32) : val_main_v5 (F := Ideal) u = fun i => u (ix2 (i 0) (2 : Fin 3)) := by
  funext i
  rw [val_main_v5_apply, val_main_v4_apply]
  refine congrArg u (funext fun a => Fin.ext ?_)
  match a with
  | ⟨0, _⟩ => show (i 0).val / 1 = (i 0).val; omega
  | ⟨1, _⟩ => rfl

/-! ## The computed columns, row by row

Each host operation here is pointwise, and on the extended reals it is the operation of the same name in the row's
formula; a broadcast scalar constant reads as that constant at every row. -/

theorem sq_ref (u : FVec Ideal S8388608x3 .f32) : val_main_v6 (F := Ideal) u = fun i => angSq (u (ix2 (i 0) (2 : Fin 3))) := by
  unfold val_main_v6
  rw [colW_ref]
  rfl

theorem ang_ref (u : FVec Ideal S8388608x3 .f32) : val_main_v7 (F := Ideal) u = fun i => ang (u (ix2 (i 0) (2 : Fin 3))) := by
  unfold val_main_v7
  rw [sq_ref]
  rfl

theorem coefA_ref (u : FVec Ideal S8388608x3 .f32) : val_main_v11 (F := Ideal) u = fun i => coefA (u (ix2 (i 0) (2 : Fin 3))) := by
  unfold val_main_v11 val_main_v8 val_main_v10
  rw [ang_ref]
  rfl

theorem coefB_ref (u : FVec Ideal S8388608x3 .f32) : val_main_v17 (F := Ideal) u = fun i => coefB (u (ix2 (i 0) (2 : Fin 3))) := by
  unfold val_main_v17 val_main_v14 val_main_v12 val_main_v16
  rw [ang_ref, sq_ref]
  rfl

theorem coefC_ref (u : FVec Ideal S8388608x3 .f32) : val_main_v22 (F := Ideal) u = fun i => coefC (u (ix2 (i 0) (2 : Fin 3))) := by
  unfold val_main_v22 val_main_v19 val_main_v21
  rw [coefA_ref, sq_ref]
  rfl

theorem rotDiag_ref (u : FVec Ideal S8388608x3 .f32) : val_main_v25 (F := Ideal) u = fun i => rotDiag (u (ix2 (i 0) (2 : Fin 3))) := by
  unfold val_main_v25 val_main_v23
  rw [coefB_ref, sq_ref]
  rfl

theorem rotUp_ref (u : FVec Ideal S8388608x3 .f32) : val_main_v27 (F := Ideal) u = fun i => rotUp (u (ix2 (i 0) (2 : Fin 3))) := by
  unfold val_main_v27 val_main_v26
  rw [coefA_ref, colW_ref]
  rfl

theorem rotLow_ref (u : FVec Ideal S8388608x3 .f32) : val_main_v28 (F := Ideal) u = fun i => rotLow (u (ix2 (i 0) (2 : Fin 3))) := by
  unfold val_main_v28
  rw [coefA_ref, colW_ref]
  rfl

theorem linDiag_ref (u : FVec Ideal S8388608x3 .f32) : val_main_v31 (F := Ideal) u = fun i => linDiag (u (ix2 (i 0) (2 : Fin 3))) := by
  unfold val_main_v31 val_main_v29
  rw [coefC_ref, sq_ref]
  rfl

theorem transX_ref (u : FVec Ideal S8388608x3 .f32) :
    val_main_v37 (F := Ideal) u = fun i => transX (u (ix2 (i 0) (0 : Fin 3))) (u (ix2 (i 0) (1 : Fin 3))) (u (ix2 (i 0) (2 : Fin 3))) := by
  unfold val_main_v37 val_main_v35 val_main_v36 val_main_v33 val_main_v32
  rw [linDiag_ref, coefB_ref, colX_ref, colY_ref, colW_ref]
  rfl

theorem transY_ref (u : FVec Ideal S8388608x3 .f32) :
    val_main_v40 (F := Ideal) u = fun i => transY (u (ix2 (i 0) (0 : Fin 3))) (u (ix2 (i 0) (1 : Fin 3))) (u (ix2 (i 0) (2 : Fin 3))) := by
  unfold val_main_v40 val_main_v38 val_main_v39 val_main_v34
  rw [linDiag_ref, coefB_ref, colX_ref, colY_ref, colW_ref]
  rfl

theorem zero_ref : val_main_v41 (F := Ideal) = fun _ => zer := rfl
theorem one_ref : val_main_v42 (F := Ideal) = fun _ => one := rfl

/-! ## Joining columns into a row, and rows into the matrix -/

/-- Three columns over the rows, each widened to unit width and joined side by side, read at row `b` and position `s`:
    column `s` at row `b`. -/
theorem joinCols_apply (a0 a1 a2 : FVec Ideal S8388608 .f32) (b : Fin 8388608) (s : Fin 3) :
    concatenate S8388608x3 1 [⟨S8388608x1, broadcastInDim S8388608x1 ![0] bcast_S8388608_S8388608x1_0 a0⟩,
        ⟨S8388608x1, broadcastInDim S8388608x1 ![0] bcast_S8388608_S8388608x1_0 a1⟩,
        ⟨S8388608x1, broadcastInDim S8388608x1 ![0] bcast_S8388608_S8388608x1_0 a2⟩]
        concatenates_S8388608x1_S8388608x1_S8388608x1_S8388608x3_d1 (ix2 b s)
      = (![a0, a1, a2] : Fin 3 → FVec Ideal S8388608 .f32) s (ix1 b) := by
  let f : Fin 3 → (S8388608x1.Idx → Ideal .f32) := fun n =>
    broadcastInDim S8388608x1 ![0] bcast_S8388608_S8388608x1_0 ((![a0, a1, a2] : Fin 3 → FVec Ideal S8388608 .f32) n)
  refine (concatenate_ofFn_unit_apply (t := S8388608x3) (s₁ := S8388608x1) (1 : Fin 2) f
    concatenates_S8388608x1_S8388608x1_S8388608x1_S8388608x3_d1 rfl rfl (ix2 b s) s rfl (ix2 b (0 : Fin 1)) ?_).trans ?_
  · intro a ha
    match a with
    | ⟨0, _⟩ => rfl
    | ⟨1, _⟩ => exact absurd rfl ha
  · exact broadcastInDim_apply _ bcast_S8388608_S8388608x1_0 _ (ix2 b (0 : Fin 1)) (ix1 b) (fun a => match a with
      | ⟨0, _⟩ => by show b.val = if (8388608 : Nat) = 1 then 0 else b.val; rw [if_neg (by decide)])

/-- Three rows, each given a unit middle axis and joined along it, read at `(b, r, s)`: row `r` at `(b, s)`. -/
theorem stackRows_apply (r0 r1 r2 : FVec Ideal S8388608x3 .f32) (b : Fin 8388608) (r s : Fin 3) :
    concatenate S8388608x3x3 1 [⟨S8388608x1x3, broadcastInDim S8388608x1x3 ![0, 2] bcast_S8388608x3_S8388608x1x3_0_2 r0⟩,
        ⟨S8388608x1x3, broadcastInDim S8388608x1x3 ![0, 2] bcast_S8388608x3_S8388608x1x3_0_2 r1⟩,
        ⟨S8388608x1x3, broadcastInDim S8388608x1x3 ![0, 2] bcast_S8388608x3_S8388608x1x3_0_2 r2⟩]
        concatenates_S8388608x1x3_S8388608x1x3_S8388608x1x3_S8388608x3x3_d1 (ix3 b r s)
      = (![r0, r1, r2] : Fin 3 → FVec Ideal S8388608x3 .f32) r (ix2 b s) := by
  let f : Fin 3 → (S8388608x1x3.Idx → Ideal .f32) := fun n =>
    broadcastInDim S8388608x1x3 ![0, 2] bcast_S8388608x3_S8388608x1x3_0_2 ((![r0, r1, r2] : Fin 3 → FVec Ideal S8388608x3 .f32) n)
  refine (concatenate_ofFn_unit_apply (t := S8388608x3x3) (s₁ := S8388608x1x3) (1 : Fin 3) f
    concatenates_S8388608x1x3_S8388608x1x3_S8388608x1x3_S8388608x3x3_d1 rfl rfl (ix3 b r s) r rfl (ix3 b (0 : Fin 1) s) ?_).trans ?_
  · intro a ha
    match a with
    | ⟨0, _⟩ => rfl
    | ⟨1, _⟩ => exact absurd rfl ha
    | ⟨2, _⟩ => rfl
  · exact broadcastInDim_apply _ bcast_S8388608x3_S8388608x1x3_0_2 _ (ix3 b (0 : Fin 1) s) (ix2 b s) (fun a => match a with
      | ⟨0, _⟩ => by show b.val = if (8388608 : Nat) = 1 then 0 else b.val; rw [if_neg (by decide)]
      | ⟨1, _⟩ => by show s.val = if (3 : Nat) = 1 then 0 else s.val; rw [if_neg (by decide)])

/-! ## The three rows -/

theorem topRow_apply (u : FVec Ideal S8388608x3 .f32) (b : Fin 8388608) (s : Fin 3) :
    val_main_v46 (F := Ideal) u (ix2 b s)
      = entries (u (ix2 b (0 : Fin 3))) (u (ix2 b (1 : Fin 3))) (u (ix2 b (2 : Fin 3))) ⟨s.val, by have := s.isLt; omega⟩ := by
  unfold val_main_v46 val_main_v43 val_main_v44 val_main_v45
  rw [joinCols_apply, rotDiag_ref, rotUp_ref, transX_ref]
  fin_cases s <;> rfl

theorem midRow_apply (u : FVec Ideal S8388608x3 .f32) (b : Fin 8388608) (s : Fin 3) :
    val_main_v50 (F := Ideal) u (ix2 b s)
      = entries (u (ix2 b (0 : Fin 3))) (u (ix2 b (1 : Fin 3))) (u (ix2 b (2 : Fin 3))) ⟨3 + s.val, by have := s.isLt; omega⟩ := by
  unfold val_main_v50 val_main_v47 val_main_v48 val_main_v49
  rw [joinCols_apply, rotLow_ref, rotDiag_ref, transY_ref]
  fin_cases s <;> rfl

theorem botRow_apply (x y w : EReal) (b : Fin 8388608) (s : Fin 3) :
    val_main_v54 (F := Ideal) (ix2 b s) = entries x y w ⟨6 + s.val, by have := s.isLt; omega⟩ := by
  unfold val_main_v54 val_main_v51 val_main_v52 val_main_v53
  rw [joinCols_apply, zero_ref, one_ref]
  fin_cases s <;> rfl

/-! ## The result -/

/-- The reference's result at `(b, r, s)`: entry `3·r + s` of the matrix of input row `b`. -/
theorem result_apply (u : FVec Ideal S8388608x3 .f32) (b : Fin 8388608) (r s : Fin 3) :
    val_main_v58 (F := Ideal) u (ix3 b r s)
      = entries (u (ix2 b (0 : Fin 3))) (u (ix2 b (1 : Fin 3))) (u (ix2 b (2 : Fin 3)))
          ⟨3 * r.val + s.val, by have := r.isLt; have := s.isLt; omega⟩ := by
  unfold val_main_v58 val_main_v55 val_main_v56 val_main_v57
  rw [stackRows_apply]
  fin_cases r
  · show val_main_v46 (F := Ideal) u (ix2 b s) = _
    rw [topRow_apply]
    fin_cases s <;> rfl
  · show val_main_v50 (F := Ideal) u (ix2 b s) = _
    rw [midRow_apply]
    fin_cases s <;> rfl
  · show val_main_v54 (F := Ideal) (ix2 b s) = _
    rw [botRow_apply (u (ix2 b (0 : Fin 3))) (u (ix2 b (1 : Fin 3))) (u (ix2 b (2 : Fin 3)))]
    fin_cases s <;> rfl

/-- The reference's result is the stack of the rows' matrices. -/
theorem result_eq (u : FVec Ideal S8388608x3 .f32) : val_main_v58 (F := Ideal) u = stacked u := by
  funext i
  obtain ⟨b, r, s, rfl⟩ : ∃ (b : Fin 8388608) (r s : Fin 3), i = ix3 b r s := ⟨i 0, i 1, i 2, eq_ix3 i⟩
  exact result_apply u b r s

end Cert.ReferenceIdeal.Stacked

end
-- ==== Proof.lean ====
/-
  A batch of planar rigid motions from their tangent vectors: for each of 8388608 rows `(x, y, w)` the 3×3 matrix
  `[[1 − b·w², (−a)·w, t₁], [a·w, 1 − b·w², t₂], [0, 0, 1]]` with `a = sin θ / (θ + ε)`, `b = (1 − cos θ) / (w² + ε)`,
  `c = (1 − a) / (w² + ε)`, `θ = √(w·w)`, `t₁ = (1 − c·w²)·x + ((−b)·w)·y`, `t₂ = (b·w)·x + (1 − c·w²)·y`.

  The kernel computes the nine entries of 8192 rows at a time as nine columns joined side by side, writes them to a flat
  8388608-by-9 array, and the host reshapes that to 8388608-by-3-by-3.  The reference computes the same columns over all
  rows at once and stacks them three to a row and three rows to a matrix.  On the extended reals both are, at `(b, r, s)`,
  entry `3·r + s` of row `b`'s matrix: the operations are the same in the same order, the kernel's `0 − a` is the
  reference's `−a`, and the host's square root, sine, cosine and quotient are the kernel's.  No step uses that the input is
  finite.  The idealization rewrote no operation, so its ledger is empty.
-/
import proofs.«126168_j66649302499847_1_alg».proof.Defs
import proofs.«126168_j66649302499847_1_alg».proof.Proof.Gen.Kernel
import proofs.«126168_j66649302499847_1_alg».proof.Proof.Gen.Kernel.Skeleton
import proofs.«126168_j66649302499847_1_alg».proof.Proof.Gen.Kernel.Launch
import proofs.«126168_j66649302499847_1_alg».proof.Proof.Gen.Kernel.Points
import proofs.«126168_j66649302499847_1_alg».proof.Proof.Gen.Kernel.Frame
import proofs.«126168_j66649302499847_1_alg».proof.Proof.Gen.KernelIdeal
import proofs.«126168_j66649302499847_1_alg».proof.Proof.Gen.KernelIdeal.Skeleton
import proofs.«126168_j66649302499847_1_alg».proof.Proof.Gen.KernelIdeal.Launch
import proofs.«126168_j66649302499847_1_alg».proof.Proof.Gen.KernelIdeal.Points
import proofs.«126168_j66649302499847_1_alg».proof.Proof.Gen.KernelIdeal.Frame
import proofs.«126168_j66649302499847_1_alg».proof.Proof.Gen.ReferenceIdeal
import proofs.«126168_j66649302499847_1_alg».proof.Proof.Gen.Pre_finite_inputs
import proofs.«126168_j66649302499847_1_alg».proof.Proof.Gen.ReferenceIdeal.Run
import proofs.«126168_j66649302499847_1_alg».proof.Proof.Gen.ReferenceIdeal.Read
import proofs.«126168_j66649302499847_1_alg».proof.Proof.Spec
import proofs.«126168_j66649302499847_1_alg».proof.Proof.BlockEntries
import proofs.«126168_j66649302499847_1_alg».proof.Proof.WholeArray
import proofs.«126168_j66649302499847_1_alg».proof.Proof.RefEntries
import Idealize.ShloMosaic.Adequacy
import Idealize.ShloMosaic.Init

noncomputable section

namespace Cert.Proof

open Idealize.ShloMosaic Idealize.ShloMosaic.TcCoe Idealize.SL.Sem

/-- The word-level kernel program runs and leaves its input as it was: the generated frame. -/
theorem frame_kernel [Cert.Kernel.Facts] [Cert.Pre_finite_inputs.Facts] : Cert.frame_Kernel :=
  fun m ρ _ => Cert.Kernel.Gen.frame m ρ

/-- So does the idealized kernel program. -/
theorem frame_kernelIdeal [Cert.KernelIdeal.Facts] [Cert.Pre_finite_inputs.Facts] : Cert.frame_KernelIdeal :=
  fun m ρ _ => Cert.KernelIdeal.Gen.frame m ρ

/-- The reference is a straight line of host operations: its run, with the result dropped. -/
theorem frame_reference [Cert.ReferenceIdeal.Facts] [Cert.Pre_finite_inputs.Facts] : Cert.frame_ReferenceIdeal :=
  fun m ρ _ => (θ_run Cert.ReferenceIdeal.defs _ _).mono (fun _ h c => (h c).2)
    (Cert.ReferenceIdeal.Value.run (F := Ideal) m ρ)

/-- Both idealized programs end with the stack of the rows' matrices of the (shared) input. -/
theorem algebraic [Cert.KernelIdeal.Facts] [Cert.ReferenceIdeal.Facts] [Cert.Pre_finite_inputs.Facts] :
    Cert.algebraic_KernelIdeal_ReferenceIdeal := by
  intro m ρ m' ρ' _ hagree
  refine ⟨fun c => Cert.PlanarExp.stacked (m ((c.tc : Thread Cert.KernelIdeal.nD Cert.KernelIdeal.τ).loc Cert.KernelIdeal.main_arg0)),
    Cert.KernelIdeal.WholeArray.run m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v58_eq, Cert.ReferenceIdeal.Stacked.result_eq, hagree c]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
